-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32000x4096 : Shape := ⟨2, ![32000, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_

variable [Facts]

def fn_part1 {F : FTy → Type} [FloatOps F] (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S32000x4096 .f32) (main_arg3 : FVec F S32000x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32000x4096 .f32 := Host.absf main_arg2
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S32000x4096 .f32 := Host.absf main_arg3
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_v13 main_v16
-- ==== Kernel.lean ====
abbrev S4096x4096 : Shape := ⟨2, ![4096, 4096]⟩
abbrev S32000x4096 : Shape := ⟨2, ![32000, 4096]⟩
abbrev S_ : Shape := ⟨0, ![]⟩
abbrev S4096x32000 : Shape := ⟨2, ![4096, 32000]⟩
abbrev S1024x256 : Shape := ⟨2, ![1024, 256]⟩
abbrev S1280x256 : Shape := ⟨2, ![1280, 256]⟩
abbrev S1024x1280 : Shape := ⟨2, ![1024, 1280]⟩

abbrev nBuf : Space → Nat
  | .hbm => 41
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S32000x4096, .f32⟩
  | .hbm, ⟨3, _⟩ => ⟨S32000x4096, .f32⟩
  | .hbm, ⟨4, _⟩ => ⟨S32000x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32000x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32000x4096, .f32⟩
  | .hbm, ⟨19, _⟩ => ⟨S32000x4096, .f32⟩
  | .hbm, ⟨20, _⟩ => ⟨S32000x4096, .f32⟩
  | .hbm, ⟨21, _⟩ => ⟨S32000x4096, .i1⟩
  | .hbm, ⟨22, _⟩ => ⟨S32000x4096, .f32⟩
  | .hbm, ⟨23, _⟩ => ⟨S32000x4096, .f32⟩
  | .hbm, ⟨24, _⟩ => ⟨S32000x4096, .f32⟩
  | .hbm, ⟨25, _⟩ => ⟨S32000x4096, .f32⟩
  | .hbm, ⟨26, _⟩ => ⟨S32000x4096, .f32⟩
  | .hbm, ⟨27, _⟩ => ⟨S32000x4096, .i1⟩
  | .hbm, ⟨28, _⟩ => ⟨S32000x4096, .f32⟩
  | .hbm, ⟨29, _⟩ => ⟨S32000x4096, .f32⟩
  | .hbm, ⟨30, _⟩ => ⟨S32000x4096, .bf16⟩
  | .hbm, ⟨31, _⟩ => ⟨S32000x4096, .bf16⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .bf16⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .bf16⟩
  | .hbm, ⟨40, _⟩ => ⟨S4096x32000, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1280x256, .bf16⟩
  | .local _ .vmem, ⟨5, _⟩ => ⟨S1280x256, .bf16⟩
  | .local _ .vmem, ⟨6, _⟩ => ⟨S1280x256, .bf16⟩
  | .local _ .vmem, ⟨7, _⟩ => ⟨S1280x256, .bf16⟩
  | .local _ .vmem, ⟨8, _⟩ => ⟨S1024x1280, .f32⟩
  | .local _ .vmem, ⟨9, _⟩ => ⟨S1024x1280, .f32⟩
  | .local _ .vmem, ⟨10, _⟩ => ⟨S1024x1280, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_cst_4 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 25, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1280x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S32000x4096_S_d0_1 : S32000x4096.ReducesTo [0, 1] S_
  h_S_ : 0 < S_.numel
  bcast_S_S32000x4096 : S_.BroadcastsInDim S32000x4096 (![] : Fin 0 → Fin S32000x4096.rank)
  bitsLt_bf16_f32 : FTy.bits .bf16 < FTy.bits .f32
  bcast_S_S4096x4096 : S_.BroadcastsInDim S4096x4096 (![] : Fin 0 → Fin S4096x4096.rank)
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  dot_S1024x256_S1280x256_S1024x1280_1_1_0_0_n_n_wf : DotDims.WF S1024x256 S1280x256 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .bf16 = 32 ∨ (Rect.block (s := S4096x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .bf16 = 32 ∨ (Rect.block (s := S4096x4096) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x256.size a ≤ S32000x4096.size a
  hwx0_2 : ∀ i : grid0.Coords, EltTy.bits .bf16 = 32 ∨ (Rect.block (s := S32000x4096) S1280x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x256.size a ≤ S32000x4096.size a
  hwx0_3 : ∀ i : grid0.Coords, EltTy.bits .bf16 = 32 ∨ (Rect.block (s := S32000x4096) S1280x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1280.size a ≤ S4096x32000.size a
  hwx0_4 : ∀ i : grid0.Coords, EltTy.bits .f32 = 32 ∨ (Rect.block (s := S4096x32000) S1024x1280.size (cc0_transform_4 i) (hinb0_4 i)).WholeWords (EltTy.packing .f32)

variable [Facts₀]

def dot_S1024x256_S1280x256_S1024x1280_1_1_0_0_n_n : DotDims S1024x256 S1280x256 S1024x1280 where
  lhsContracting := [1]
  rhsContracting := [1]
  lhsNonContracting := [0]
  rhsNonContracting := [0]
  lhsBatch := []
  rhsBatch := []
  wf := dot_S1024x256_S1280x256_S1024x1280_1_1_0_0_n_n_wf

abbrev win0_0 : Pipeline.Window sig grid0 :=
  Pipeline.Window.ofSpec (Memref.whole main_v24) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1280x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1280x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1024x1280.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S32000x4096 : Shape := ⟨2, ![32000, 4096]⟩
abbrev S_ : Shape := ⟨0, ![]⟩
abbrev S4096x32000 : Shape := ⟨2, ![4096, 32000]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S32000x4096, .f32⟩
  | .hbm, ⟨3, _⟩ => ⟨S32000x4096, .f32⟩
  | .hbm, ⟨4, _⟩ => ⟨S32000x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32000x4096, .f32⟩
  | .hbm, ⟨12, _⟩ => ⟨S32000x4096, .f32⟩
  | .hbm, ⟨13, _⟩ => ⟨S32000x4096, .i1⟩
  | .hbm, ⟨14, _⟩ => ⟨S32000x4096, .f32⟩
  | .hbm, ⟨15, _⟩ => ⟨S32000x4096, .f32⟩
  | .hbm, ⟨16, _⟩ => ⟨S32000x4096, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32000x4096, .f32⟩
  | .hbm, ⟨24, _⟩ => ⟨S32000x4096, .f32⟩
  | .hbm, ⟨25, _⟩ => ⟨S32000x4096, .i1⟩
  | .hbm, ⟨26, _⟩ => ⟨S32000x4096, .f32⟩
  | .hbm, ⟨27, _⟩ => ⟨S32000x4096, .f32⟩
  | .hbm, ⟨28, _⟩ => ⟨S4096x32000, .f32⟩
  | .hbm, ⟨29, _⟩ => ⟨S4096x32000, .f32⟩
  | .hbm, ⟨30, _⟩ => ⟨S4096x32000, .f32⟩
  | .hbm, ⟨31, _⟩ => ⟨S4096x32000, .f32⟩
  | .hbm, ⟨32, _⟩ => ⟨S_, .f32⟩
  | .hbm, ⟨33, _⟩ => ⟨S4096x32000, .f32⟩
  | .hbm, ⟨34, _⟩ => ⟨S4096x32000, .f32⟩
  | .hbm, ⟨35, _⟩ => ⟨S_, .f32⟩
  | .hbm, ⟨36, _⟩ => ⟨S4096x32000, .f32⟩
  | .hbm, ⟨37, _⟩ => ⟨S4096x32000, .f32⟩
  | .hbm, ⟨38, _⟩ => ⟨S4096x32000, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  reducesTo_S32000x4096_S_d0_1 : S32000x4096.ReducesTo [0, 1] S_
  h_S_ : 0 < S_.numel
  bcast_S_S32000x4096 : S_.BroadcastsInDim S32000x4096 (![] : Fin 0 → Fin S32000x4096.rank)
  transposes_S32000x4096_S4096x32000_1_0 : S32000x4096.Transposes [1, 0] S4096x32000
  bcast_S_S4096x32000 : S_.BroadcastsInDim S4096x32000 (![] : Fin 0 → Fin S4096x32000.rank)
  dot_S4096x4096_S4096x32000_S4096x32000_1_0_0_1_n_n_wf : DotDims.WF S4096x4096 S4096x32000 S4096x32000 [1] [0] [0] [1] [] []

variable [Facts₀]

def dot_S4096x4096_S4096x32000_S4096x32000_1_0_0_1_n_n : DotDims S4096x4096 S4096x32000 S4096x32000 where
  lhsContracting := [1]
  rhsContracting := [0]
  lhsNonContracting := [0]
  rhsNonContracting := [1]
  lhsBatch := []
  rhsBatch := []
  wf := dot_S4096x4096_S4096x32000_S4096x32000_1_0_0_1_n_n_wf

class Facts : Prop extends Facts₀ where

variable [Facts]
-- ==== Proof.Sums.lean ====
/-
  Sums over the extended reals that the two programs arrange differently.

  * Scaling a finite sum by a constant `c` with `0 ≤ c < ⊤` is the sum of the scaled terms: on the extended
    reals `c * (y + z) = c * y + c * z` holds for such a `c` whatever `y` and `z` are (multiplying by a
    non-negative real keeps `⊥`, `⊤` and the sign of every term), and a finite sum follows by induction.
  * The two output weights, the f32 words `0x3F19999A` (the float nearest 0.6) and `0x3ECCCCCD` (nearest 0.4),
    denote the positive reals `10066330 / 2^24` and `13421773 / 2^25`.
  * A sum over the 4096 hidden coordinates is the sum over 16 chunks of the sums over the 256 coordinates of a
    chunk: coordinate `h` is `256 * k + l`.
  * THE READOUT. For activation matrices `A`, `B` [4096, 4096] and weight matrices `Qs`, `Qm` [32000, 4096] the
    result at row `n`, column `o` is `∑ h, A[n, h] * Qs[o, h] + ∑ h, B[n, h] * Qm[o, h]`. Chunk by chunk it is
    the sum over the 16 chunks of the two chunk products; and a constant `0 ≤ c < ⊤` in front of a row product is
    the row product of the scaled activations.
-/
import Idealize.ShloMosaic.PureOps.Ideal
import Idealize.ShloMosaic.PureOps.Ideal.Laws
import Idealize.ShloMosaic.Lib.ValueIdx

noncomputable section

open scoped BigOperators

namespace Cert.Readout

open Idealize.ShloMosaic Idealize.ShloMosaic.ValueIdx

/-- A constant `0 ≤ c < ⊤` moves inside a finite sum of extended reals. -/
theorem scale_sum {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The spike weight: the f32 nearest 0.6 is `10066330 / 2^24`. -/
theorem spikeW_eq : Ideal.ofBits .f32 0x3F19999A#32 = ((10066330 / 16777216 : ℝ) : EReal) := by
  simp [Ideal.ofBits, Ideal.ieee, -EReal.coe_mul]; norm_num

/-- The membrane weight: the f32 nearest 0.4 is `13421773 / 2^25`. -/
theorem membraneW_eq : Ideal.ofBits .f32 0x3ECCCCCD#32 = ((13421773 / 33554432 : ℝ) : EReal) := by
  simp [Ideal.ofBits, Ideal.ieee, -EReal.coe_mul]; norm_num

theorem spikeW_nonneg : 0 ≤ Ideal.ofBits .f32 0x3F19999A#32 := by
  rw [spikeW_eq]; exact EReal.coe_nonneg.mpr (by norm_num)

theorem spikeW_ne_top : Ideal.ofBits .f32 0x3F19999A#32 ≠ ⊤ := by
  rw [spikeW_eq]; exact EReal.coe_ne_top _

theorem membraneW_nonneg : 0 ≤ Ideal.ofBits .f32 0x3ECCCCCD#32 := by
  rw [membraneW_eq]; exact EReal.coe_nonneg.mpr (by norm_num)

theorem membraneW_ne_top : Ideal.ofBits .f32 0x3ECCCCCD#32 ≠ ⊤ := by
  rw [membraneW_eq]; exact EReal.coe_ne_top _

/-- The hidden axis in chunks: `∑ h < 4096` is `∑ k < 16, ∑ l < 256` at `h = 256 * k + l`. -/
theorem sum_chunks {M : Type*} [AddCommMonoid M] (f : Fin 4096 → M) :
    ∑ h : Fin 4096, f h = ∑ k : Fin 16, ∑ l : Fin 256, f ⟨256 * k.val + l.val, by omega⟩ := by
  rw [← Equiv.sum_comp (finProdFinEquiv : Fin 16 × Fin 256 ≃ Fin 4096) f, Fintype.sum_prod_type]
  refine Finset.sum_congr rfl fun k _ => Finset.sum_congr rfl fun l _ => ?_
  congr 1
  apply Fin.ext
  simp [finProdFinEquiv]
  omega

/-! ## The readout -/

/-- Row `n` of an activation matrix against row `o` of a weight matrix: `∑ h, A[n, h] * Q[o, h]`. -/
def rowdot (A : (⟨2, ![4096, 4096]⟩ : Shape).Idx → EReal) (Q : (⟨2, ![32000, 4096]⟩ : Shape).Idx → EReal)
    (n : Fin 4096) (o : Fin 32000) : EReal :=
  ∑ h : Fin 4096, A (ix2 n h) * Q (ix2 o h)

/-- The readout of two activation matrices against two weight matrices: the sum of the two row products. -/
def readout (A B : (⟨2, ![4096, 4096]⟩ : Shape).Idx → EReal) (Qs Qm : (⟨2, ![32000, 4096]⟩ : Shape).Idx → EReal) :
    (⟨2, ![4096, 32000]⟩ : Shape).Idx → EReal :=
  fun i => rowdot A Qs (i 0) (i 1) + rowdot B Qm (i 0) (i 1)

/-- A row product, chunk by chunk. -/
theorem rowdot_chunks (A : (⟨2, ![4096, 4096]⟩ : Shape).Idx → EReal) (Q : (⟨2, ![32000, 4096]⟩ : Shape).Idx → EReal)
    (n : Fin 4096) (o : Fin 32000) :
    rowdot A Q n o = ∑ s : Fin 16, ∑ l : Fin 256,
      A (ix2 n ⟨256 * s.val + l.val, by omega⟩) * Q (ix2 o ⟨256 * s.val + l.val, by omega⟩) :=
  sum_chunks _

/-- The readout, chunk by chunk: the order in which the kernel accumulates it. -/
theorem readout_chunks (A B : (⟨2, ![4096, 4096]⟩ : Shape).Idx → EReal) (Qs Qm : (⟨2, ![32000, 4096]⟩ : Shape).Idx → EReal)
    (n : Fin 4096) (o : Fin 32000) :
    readout A B Qs Qm (ix2 n o) = ∑ s : Fin 16,
      ((∑ l : Fin 256, A (ix2 n ⟨256 * s.val + l.val, by omega⟩) * Qs (ix2 o ⟨256 * s.val + l.val, by omega⟩))
        + ∑ l : Fin 256, B (ix2 n ⟨256 * s.val + l.val, by omega⟩) * Qm (ix2 o ⟨256 * s.val + l.val, by omega⟩)) := by
  show rowdot A Qs n o + rowdot B Qm n o = _
  rw [rowdot_chunks, rowdot_chunks, ← Finset.sum_add_distrib]

/-- A constant `0 ≤ c < ⊤` in front of a row product scales the activations. -/
theorem scale_rowdot (c : EReal) (h0 : 0 ≤ c) (ht : c ≠ ⊤) (X : (⟨2, ![4096, 4096]⟩ : Shape).Idx → EReal)
    (Q : (⟨2, ![32000, 4096]⟩ : Shape).Idx → EReal) (n : Fin 4096) (o : Fin 32000) :
    c * rowdot X Q n o = rowdot (fun j => c * X j) Q n o := by
  unfold rowdot
  rw [scale_sum _ c h0 ht]
  exact Finset.sum_congr rfl fun h _ => (mul_assoc _ _ _).symm

end Cert.Readout

end
-- ==== Proof.Payload.lean ====
/-
  One grid point's arithmetic, read at an element, at the ideal instance.

  A point loads a [1024, 256] chunk `x` of an activation matrix and a [1280, 256] chunk `w` of a quantized weight
  matrix and adds to the [1024, 1280] accumulator the product `x · wᵀ`: at row `p` and column `q` the sum over the
  256 coordinates `l` of the chunk of `x[p, l] * w[q, l]` (both operands are contracted along their second axis; the
  matrix unit starts from the zero splat, which denotes `0`, and nothing rounds). A point does this twice, first for
  the spike pair of chunks and then for the membrane pair; the first point of a run starts from the zero block.
-/
import proofs.«423691_j47072841564533_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-! ## The dot's operand indices: rows and columns are kept, both second axes are contracted -/

theorem lhs_0 (i : S1024x1280.Idx) (q : dot_S1024x256_S1280x256_S1024x1280_1_1_0_0_n_n.contr.Idx) :
    (dot_S1024x256_S1280x256_S1024x1280_1_1_0_0_n_n.lhsIdx i q 0).val = (i 0).val := by
  unfold DotDims.lhsIdx
  rw [dif_neg (show ¬(0 : Fin S1024x256.rank) ∈ dot_S1024x256_S1280x256_S1024x1280_1_1_0_0_n_n.lhsBatch by decide), dif_pos (show (0 : Fin S1024x256.rank) ∈ dot_S1024x256_S1280x256_S1024x1280_1_1_0_0_n_n.lhsNonContracting by decide)]
  rfl
theorem lhs_1 (i : S1024x1280.Idx) (q : dot_S1024x256_S1280x256_S1024x1280_1_1_0_0_n_n.contr.Idx) :
    (dot_S1024x256_S1280x256_S1024x1280_1_1_0_0_n_n.lhsIdx i q 1).val = (q ⟨0, by decide⟩).val :=
  dot_S1024x256_S1280x256_S1024x1280_1_1_0_0_n_n.lhsIdx_val_of_single rfl i q
theorem rhs_0 (i : S1024x1280.Idx) (q : dot_S1024x256_S1280x256_S1024x1280_1_1_0_0_n_n.contr.Idx) :
    (dot_S1024x256_S1280x256_S1024x1280_1_1_0_0_n_n.rhsIdx i q 0).val = (i 1).val := by
  unfold DotDims.rhsIdx
  rw [dif_neg (show ¬(0 : Fin S1280x256.rank) ∈ dot_S1024x256_S1280x256_S1024x1280_1_1_0_0_n_n.rhsBatch by decide), dif_pos (show (0 : Fin S1280x256.rank) ∈ dot_S1024x256_S1280x256_S1024x1280_1_1_0_0_n_n.rhsNonContracting by decide)]
  rfl
theorem rhs_1 (i : S1024x1280.Idx) (q : dot_S1024x256_S1280x256_S1024x1280_1_1_0_0_n_n.contr.Idx) :
    (dot_S1024x256_S1280x256_S1024x1280_1_1_0_0_n_n.rhsIdx i q 1).val = (q ⟨0, by decide⟩).val :=
  dot_S1024x256_S1280x256_S1024x1280_1_1_0_0_n_n.rhsIdx_val_of_single rfl i q

/-- The product of a pair of chunks at row `p`, column `q`: `∑ l, x[p, l] * w[q, l]`. -/
theorem chunk_product (x : FVec Ideal S1024x256 .bf16) (w : FVec Ideal S1280x256 .bf16) (p : Fin 1024) (q : Fin 1280) :
    matmul dot_S1024x256_S1280x256_S1024x1280_1_1_0_0_n_n none x w (constant S1024x1280 .f32 0x00000000#32) (ix2 p q)
      = ∑ l : Fin 256, x (ix2 p l) * w (ix2 q l) := by
  simp only [matmul]
  rw [Ideal.matmul_constant_zero_apply, ← Equiv.sum_comp (contrEquiv1 dot_S1024x256_S1280x256_S1024x1280_1_1_0_0_n_n 256 rfl rfl).symm]
  refine Finset.sum_congr rfl fun k _ => ?_
  have hk := contrEquiv1_symm_val dot_S1024x256_S1280x256_S1024x1280_1_1_0_0_n_n 256 rfl rfl k
  have el : dot_S1024x256_S1280x256_S1024x1280_1_1_0_0_n_n.lhsIdx (ix2 p q) ((contrEquiv1 dot_S1024x256_S1280x256_S1024x1280_1_1_0_0_n_n 256 rfl rfl).symm k) = ix2 p k := funext fun a => Fin.ext (by
    match a with
    | ⟨0, _⟩ => exact lhs_0 _ _
    | ⟨1, _⟩ => exact (lhs_1 _ _).trans hk)
  have er : dot_S1024x256_S1280x256_S1024x1280_1_1_0_0_n_n.rhsIdx (ix2 p q) ((contrEquiv1 dot_S1024x256_S1280x256_S1024x1280_1_1_0_0_n_n 256 rfl rfl).symm k) = ix2 q k := funext fun a => Fin.ext (by
    match a with
    | ⟨0, _⟩ => exact rhs_0 _ _
    | ⟨1, _⟩ => exact (rhs_1 _ _).trans hk)
  rw [el, er]

/-! ## The three stores' values at an element -/

/-- The reset stores the zero block. -/
theorem reset_apply (j : S1024x1280.Idx) : k0_pay1 (F := Ideal) j = 0 := by
  unfold k0_pay1
  simp only [shapeCast_self]
  show Ideal.ofBits .f32 0x00000000#32 = 0
  exact Ideal.ofBits_zero_f32

/-- The spike step: the accumulator plus the spike chunks' product. -/
theorem spike_step_apply (x : Vec Ideal S1024x256 .bf16) (w : Vec Ideal S1280x256 .bf16) (acc : Vec Ideal S1024x1280 .f32)
    (p : Fin 1024) (q : Fin 1280) :
    k0_pay2 (F := Ideal) x w acc (ix2 p q) = acc (ix2 p q) + ∑ l : Fin 256, x (ix2 p l) * w (ix2 q l) := by
  unfold k0_pay2
  simp only [shapeCast_self]
  show acc (ix2 p q) + matmul (F := Ideal) dot_S1024x256_S1280x256_S1024x1280_1_1_0_0_n_n none x w (constant (F := Ideal) S1024x1280 .f32 0x00000000#32) (ix2 p q) = _
  rw [chunk_product]

/-- The membrane step: the same with the membrane chunks. -/
theorem membrane_step_apply (x : Vec Ideal S1024x256 .bf16) (w : Vec Ideal S1280x256 .bf16) (acc : Vec Ideal S1024x1280 .f32)
    (p : Fin 1024) (q : Fin 1280) :
    k0_pay3 (F := Ideal) x w acc (ix2 p q) = acc (ix2 p q) + ∑ l : Fin 256, x (ix2 p l) * w (ix2 q l) := by
  unfold k0_pay3
  simp only [shapeCast_self]
  show acc (ix2 p q) + matmul (F := Ideal) dot_S1024x256_S1280x256_S1024x1280_1_1_0_0_n_n none x w (constant (F := Ideal) S1024x1280 .f32 0x00000000#32) (ix2 p q) = _
  rw [chunk_product]

end Cert.KernelIdeal.Point

end
-- ==== Proof.LibReadBack.lean ====
/-
  A whole-buffer load after whole-buffer stores reads the latest store.

  When a body stores a full block several times and then loads the full block, the load sees the value of the
  last store, whatever the earlier stores held: the latest store's rectangle is the whole shape, so it covers
  every element and decides each one.
-/
import Idealize.ShloMosaic.Lib.Pipeline.Value
import Idealize.ShloMosaic.Lib.Pipeline.FrameBody

noncomputable section

namespace Cert.Lib

open Idealize.ShloMosaic

variable {Val : EltTy → Type} {S : Shape} {e : EltTy}

/-- Reading the whole shape back through a list of stores whose LATEST (the head) stored the whole shape gives
    that store's value; the stores before it do not matter. (The one-store form is the library's
    `View.readCov_unit_zero`.) -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons.mpr (Or.inl rfl), by
    show y ∈ (Rect.whole S).set; rw [Rect.set_whole]; exact Finset.mem_univ y⟩), View.canon_cons_unit_zero rfl,
    View.ld_unit_zero rfl]

end Cert.Lib

end
-- ==== Proof.Pieces.lean ====
/-
  What each case of the body leaves, as the point's arithmetic.

  The body has three cases by the position `k` of the point on the hidden axis: the first point of a run (`k = 0`)
  stores the zero block into the accumulator and then adds the two products; a middle point adds the two products
  to what the point before left; the last point (`k = 15`) does the same and then copies the accumulator into the
  output block. In every case the accumulator ends at `membrane_step (spike_step acc)`, with `acc` the zero block
  at a first point and the previous contents otherwise, and the last point's output block holds that same value:
  every store is of the whole block, so a later load reads the latest store.
-/
import proofs.«423691_j47072841564533_3_alg».proof.Proof.Gen.KernelIdeal.Frame
import proofs.«423691_j47072841564533_3_alg».proof.Proof.LibReadBack
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- One point's update of the accumulator: the spike step, then the membrane step. -/
abbrev update (x0 x1 : Vec F S1024x256 .bf16) (x2 x3 : Vec F S1280x256 .bf16) (acc : Vec F S1024x1280 .f32) : Vec F S1024x1280 .f32 :=
  k0_pay3 x1 x3 (k0_pay2 x0 x2 acc)

/-- A first point leaves the update of the zero block. -/
theorem first_leaves (c : Dev nD) (i : grid0.Coords) (a3 : Memref sig .tc .vmem S1024x256 .bf16) (h3 : a3.IsWhole) (a4 : Memref sig .tc .vmem S1024x256 .bf16) (h4 : a4.IsWhole) (a5 : Memref sig .tc .vmem S1280x256 .bf16) (h5 : a5.IsWhole) (a6 : Memref sig .tc .vmem S1280x256 .bf16) (h6 : a6.IsWhole) (a7 : Memref sig .tc .vmem S1024x1280 .f32) (h7 : a7.IsWhole) (a8 : Memref sig .tc .vmem S1024x1280 .f32) (h8 : a8.IsWhole) (hc0 : cond0_0 i) (hc1 : ¬cond0_1 i) (x0 : Vec F S1024x256 .bf16) (x1 : Vec F S1024x256 .bf16) (x2 : Vec F S1280x256 .bf16) (x3 : Vec F S1280x256 .bf16) :
    sout0_A_0 c i a3 h3 a4 h4 a5 h5 a6 h6 a7 h7 a8 h8 hc0 hc1 x0 x1 x2 x3 = update x0 x1 x2 x3 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1280) hz]
  simp only [View.readAt_eq_ld, h3.read_unread, h4.read_unread, h5.read_unread, h6.read_unread, h8.read_unread,
    View.ld_unit_zero (S := S1024x256) hz, View.ld_unit_zero (S := S1280x256) hz, View.ld_unit_zero (S := S1024x1280) hz,
    View.readCov_unit_zero (S := S1024x1280) _ hz, Cert.Lib.readCov_cons_unit_zero (S := S1024x1280) _ hz]

/-- A middle point leaves the update of what the point before left. -/
theorem middle_leaves (c : Dev nD) (i : grid0.Coords) (a3 : Memref sig .tc .vmem S1024x256 .bf16) (h3 : a3.IsWhole) (a4 : Memref sig .tc .vmem S1024x256 .bf16) (h4 : a4.IsWhole) (a5 : Memref sig .tc .vmem S1280x256 .bf16) (h5 : a5.IsWhole) (a6 : Memref sig .tc .vmem S1280x256 .bf16) (h6 : a6.IsWhole) (a7 : Memref sig .tc .vmem S1024x1280 .f32) (h7 : a7.IsWhole) (a8 : Memref sig .tc .vmem S1024x1280 .f32) (h8 : a8.IsWhole) (hc0 : ¬cond0_0 i) (hc1 : ¬cond0_1 i) (x0 : Vec F S1024x256 .bf16) (x1 : Vec F S1024x256 .bf16) (x2 : Vec F S1280x256 .bf16) (x3 : Vec F S1280x256 .bf16) (xs0 : Vec F S1024x1280 .f32) :
    sout0_B_0 c i a3 h3 a4 h4 a5 h5 a6 h6 a7 h7 a8 h8 hc0 hc1 x0 x1 x2 x3 xs0 = update x0 x1 x2 x3 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_cons_unit_zero (S := S1024x1280) hz]
  simp only [View.readAt_eq_ld, h3.read_unread, h4.read_unread, h5.read_unread, h6.read_unread, h8.read_unread,
    View.ld_unit_zero (S := S1024x256) hz, View.ld_unit_zero (S := S1280x256) hz, View.ld_unit_zero (S := S1024x1280) hz,
    View.readCov_unit_zero (S := S1024x1280) _ hz]

/-- The last point leaves the same in the accumulator … -/
theorem last_leaves (c : Dev nD) (i : grid0.Coords) (a3 : Memref sig .tc .vmem S1024x256 .bf16) (h3 : a3.IsWhole) (a4 : Memref sig .tc .vmem S1024x256 .bf16) (h4 : a4.IsWhole) (a5 : Memref sig .tc .vmem S1280x256 .bf16) (h5 : a5.IsWhole) (a6 : Memref sig .tc .vmem S1280x256 .bf16) (h6 : a6.IsWhole) (a7 : Memref sig .tc .vmem S1024x1280 .f32) (h7 : a7.IsWhole) (a8 : Memref sig .tc .vmem S1024x1280 .f32) (h8 : a8.IsWhole) (hc0 : ¬cond0_0 i) (hc1 : cond0_1 i) (x0 : Vec F S1024x256 .bf16) (x1 : Vec F S1024x256 .bf16) (x2 : Vec F S1280x256 .bf16) (x3 : Vec F S1280x256 .bf16) (xs0 : Vec F S1024x1280 .f32) :
    sout0_C_0 c i a3 h3 a4 h4 a5 h5 a6 h6 a7 h7 a8 h8 hc0 hc1 x0 x1 x2 x3 xs0 = update x0 x1 x2 x3 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_cons_unit_zero (S := S1024x1280) hz]
  simp only [View.readAt_eq_ld, h3.read_unread, h4.read_unread, h5.read_unread, h6.read_unread, h8.read_unread,
    View.ld_unit_zero (S := S1024x256) hz, View.ld_unit_zero (S := S1280x256) hz, View.ld_unit_zero (S := S1024x1280) hz,
    View.readCov_unit_zero (S := S1024x1280) _ hz, Cert.Lib.readCov_cons_unit_zero (S := S1024x1280) _ hz]

/-- … and writes it to the output block. -/
theorem last_writes (c : Dev nD) (i : grid0.Coords) (a3 : Memref sig .tc .vmem S1024x256 .bf16) (h3 : a3.IsWhole) (a4 : Memref sig .tc .vmem S1024x256 .bf16) (h4 : a4.IsWhole) (a5 : Memref sig .tc .vmem S1280x256 .bf16) (h5 : a5.IsWhole) (a6 : Memref sig .tc .vmem S1280x256 .bf16) (h6 : a6.IsWhole) (a7 : Memref sig .tc .vmem S1024x1280 .f32) (h7 : a7.IsWhole) (a8 : Memref sig .tc .vmem S1024x1280 .f32) (h8 : a8.IsWhole) (hc0 : ¬cond0_0 i) (hc1 : cond0_1 i) (x0 : Vec F S1024x256 .bf16) (x1 : Vec F S1024x256 .bf16) (x2 : Vec F S1280x256 .bf16) (x3 : Vec F S1280x256 .bf16) (xs0 : Vec F S1024x1280 .f32) :
    out0_C_4 c i a3 h3 a4 h4 a5 h5 a6 h6 a7 h7 a8 h8 hc0 hc1 x0 x1 x2 x3 xs0 = update x0 x1 x2 x3 xs0 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero (S := S1024x1280) hz]
  simp only [View.readAt_eq_ld, h3.read_unread, h4.read_unread, h5.read_unread, h6.read_unread, h8.read_unread,
    View.ld_unit_zero (S := S1024x256) hz, View.ld_unit_zero (S := S1280x256) hz, View.ld_unit_zero (S := S1024x1280) hz,
    View.readCov_unit_zero (S := S1024x1280) _ hz, Cert.Lib.readCov_cons_unit_zero (S := S1024x1280) _ hz]

end Cert.KernelIdeal.Cases

end
-- ==== Proof.Arrays.lean ====
/-
  What the kernel's windows stage, and which part of it a point's chunk is.

  Before the kernel runs, the host scales the spikes by the f32 word nearest 0.6 and the membranes by the one nearest
  0.4, and quantizes each weight matrix to `sign w * [|w| > 0.7 * mean |w|]` (the mean as the sum over all entries,
  from zero, divided by 32000 * 4096); each is then narrowed to bf16. These four arrays are what the windows stage.

  The grid is 4 x 25 x 16: point `t` is row block `t / 16 / 25`, column block `(t / 16) % 25`, chunk `t % 16` of the
  hidden axis. An activation chunk is rows `1024 * (t / 16 / 25) + p`, hidden coordinates `256 * (t % 16) + l`; a weight
  chunk is output rows `1280 * ((t / 16) % 25) + q`, the same hidden coordinates; the output block is rows
  `1024 * (t / 16 / 25) + p`, columns `1280 * ((t / 16) % 25) + q`.
-/
import proofs.«423691_j47072841564533_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Staged

open Cert.KernelIdeal Cert.KernelIdeal.Gen Idealize.ShloMosaic Idealize.ShloMosaic.TcCoe Idealize.SL.Sem Idealize.ShloMosaic.ValueIdx
open Idealize.ShloMosaic.StableHlo

variable {F : FTy → Type} [FloatOps F]
variable (m : (ℓ : Loc nD τ sig) → Buf (Elt F) ℓ)

/-! ## The staged arrays -/

/-- The ternary quantization of a weight matrix: `sign w` where `|w|` exceeds 0.7 times the mean of `|w|`, else zero. -/
def ternary (w : FVec F S32000x4096 .f32) : FVec F S32000x4096 .f32 :=
  mulf (Host.sign w) (uitofp .f32 (cmpf .ogt (Host.absf w) (broadcastInDim S32000x4096 ![] bcast_S_S32000x4096
    (mulf (constant S_ .f32 0x3F333333#32) (Host.divf (Host.reduceAdd (Host.absf w) (constant S_ .f32 0x00000000#32) reducesTo_S32000x4096_S_d0_1 h_S_) (constant S_ .f32 0x4CFA0000#32))))))

/-- An activation matrix scaled by a constant word. -/
def scaled (b : BitVec 32) (x : FVec F S4096x4096 .f32) : FVec F S4096x4096 .f32 :=
  mulf (broadcastInDim S4096x4096 ![] bcast_S_S4096x4096 (constant (F := F) S_ .f32 b)) x

theorem staged_spikes (c : Dev nD) : (V m c main_v24 : S4096x4096.Idx → Elt F .bf16) =
    truncf .bf16 (scaled 0x3F19999A#32 (m ((c : Thread nD τ).loc main_arg0))) bitsLt_bf16_f32 := by
  dsimp only [Gen.V, Gen.hostOps0]; after_results; try rfl

theorem staged_membranes (c : Dev nD) : (V m c main_v27 : S4096x4096.Idx → Elt F .bf16) =
    truncf .bf16 (scaled 0x3ECCCCCD#32 (m ((c : Thread nD τ).loc main_arg1))) bitsLt_bf16_f32 := by
  dsimp only [Gen.V, Gen.hostOps0]; after_results; try rfl

theorem staged_wspike (c : Dev nD) : (V m c main_v20 : S32000x4096.Idx → Elt F .bf16) =
    truncf .bf16 (ternary (m ((c : Thread nD τ).loc main_arg2))) bitsLt_bf16_f32 := by
  dsimp only [Gen.V, Gen.hostOps0]; after_results; try rfl

theorem staged_wmembrane (c : Dev nD) : (V m c main_v21 : S32000x4096.Idx → Elt F .bf16) =
    truncf .bf16 (ternary (m ((c : Thread nD τ).loc main_arg3))) bitsLt_bf16_f32 := by
  dsimp only [Gen.V, Gen.hostOps0]; after_results; try rfl

/-! ## The index maps, decided over the 1600 points -/

theorem index0 : ∀ t : Fin cfg0.N, win0_0.index t (0 : Fin 2) = t.val / 16 / 25 ∧ win0_0.index t (1 : Fin 2) = t.val % 16 :=
  (by decide +kernel : ∀ t : Fin grid0.N, win0_0.index t (0 : Fin 2) = t.val / 16 / 25 ∧ win0_0.index t (1 : Fin 2) = t.val % 16)

theorem index1 : ∀ t : Fin cfg0.N, win0_1.index t (0 : Fin 2) = t.val / 16 / 25 ∧ win0_1.index t (1 : Fin 2) = t.val % 16 :=
  (by decide +kernel : ∀ t : Fin grid0.N, win0_1.index t (0 : Fin 2) = t.val / 16 / 25 ∧ win0_1.index t (1 : Fin 2) = t.val % 16)

theorem index2 : ∀ t : Fin cfg0.N, win0_2.index t (0 : Fin 2) = t.val / 16 % 25 ∧ win0_2.index t (1 : Fin 2) = t.val % 16 :=
  (by decide +kernel : ∀ t : Fin grid0.N, win0_2.index t (0 : Fin 2) = t.val / 16 % 25 ∧ win0_2.index t (1 : Fin 2) = t.val % 16)

theorem index3 : ∀ t : Fin cfg0.N, win0_3.index t (0 : Fin 2) = t.val / 16 % 25 ∧ win0_3.index t (1 : Fin 2) = t.val % 16 :=
  (by decide +kernel : ∀ t : Fin grid0.N, win0_3.index t (0 : Fin 2) = t.val / 16 % 25 ∧ win0_3.index t (1 : Fin 2) = t.val % 16)

theorem index4 : ∀ t : Fin cfg0.N, win0_4.index t (0 : Fin 2) = t.val / 16 / 25 ∧ win0_4.index t (1 : Fin 2) = t.val / 16 % 25 :=
  (by decide +kernel : ∀ t : Fin grid0.N, win0_4.index t (0 : Fin 2) = t.val / 16 / 25 ∧ win0_4.index t (1 : Fin 2) = t.val / 16 % 25)

/-! ## A chunk is part of its array -/

/-- The spike chunk at point `t`: rows `1024 * (t / 16 / 25) + p`, hidden coordinates `256 * (t % 16) + l` of the scaled spikes. -/
theorem spike_chunk (c : Dev nD) (t : Fin cfg0.N) (p : Fin 1024) (l : Fin 256)
    (h0 : 1024 * (t.val / 16 / 25) + p.val < 4096) (h1 : 256 * (t.val % 16) + l.val < 4096) :
    (iblk m c 0 t : Vec F S1024x256 .bf16) (ix2 p l)
      = (V m c main_v24 : S4096x4096.Idx → Elt F .bf16) (ix2 ⟨1024 * (t.val / 16 / 25) + p.val, h0⟩ ⟨256 * (t.val % 16) + l.val, h1⟩) := by
  unfold iblk
  rw [View.read_apply]
  show V m c main_v24 _ = V m c main_v24 _
  congr 1
  funext a
  apply Fin.ext
  match a with
  | ⟨0, _⟩ => show win0_0.index t 0 * 1024 + 1 * p.val = 1024 * (t.val / 16 / 25) + p.val; rw [(index0 t).1]; omega
  | ⟨1, _⟩ => show win0_0.index t 1 * 256 + 1 * l.val = 256 * (t.val % 16) + l.val; rw [(index0 t).2]; omega

/-- The membrane chunk at point `t`: the same part of the scaled membranes. -/
theorem membrane_chunk (c : Dev nD) (t : Fin cfg0.N) (p : Fin 1024) (l : Fin 256)
    (h0 : 1024 * (t.val / 16 / 25) + p.val < 4096) (h1 : 256 * (t.val % 16) + l.val < 4096) :
    (iblk m c 1 t : Vec F S1024x256 .bf16) (ix2 p l)
      = (V m c main_v27 : S4096x4096.Idx → Elt F .bf16) (ix2 ⟨1024 * (t.val / 16 / 25) + p.val, h0⟩ ⟨256 * (t.val % 16) + l.val, h1⟩) := by
  unfold iblk
  rw [View.read_apply]
  show V m c main_v27 _ = V m c main_v27 _
  congr 1
  funext a
  apply Fin.ext
  match a with
  | ⟨0, _⟩ => show win0_1.index t 0 * 1024 + 1 * p.val = 1024 * (t.val / 16 / 25) + p.val; rw [(index1 t).1]; omega
  | ⟨1, _⟩ => show win0_1.index t 1 * 256 + 1 * l.val = 256 * (t.val % 16) + l.val; rw [(index1 t).2]; omega

/-- The spike-weight chunk at point `t`: output rows `1280 * ((t / 16) % 25) + q`, hidden coordinates `256 * (t % 16) + l` of the quantized spike weights. -/
theorem wspike_chunk (c : Dev nD) (t : Fin cfg0.N) (p : Fin 1280) (l : Fin 256)
    (h0 : 1280 * (t.val / 16 % 25) + p.val < 32000) (h1 : 256 * (t.val % 16) + l.val < 4096) :
    (iblk m c 2 t : Vec F S1280x256 .bf16) (ix2 p l)
      = (V m c main_v20 : S32000x4096.Idx → Elt F .bf16) (ix2 ⟨1280 * (t.val / 16 % 25) + p.val, h0⟩ ⟨256 * (t.val % 16) + l.val, h1⟩) := by
  unfold iblk
  rw [View.read_apply]
  show V m c main_v20 _ = V m c main_v20 _
  congr 1
  funext a
  apply Fin.ext
  match a with
  | ⟨0, _⟩ => show win0_2.index t 0 * 1280 + 1 * p.val = 1280 * (t.val / 16 % 25) + p.val; rw [(index2 t).1]; omega
  | ⟨1, _⟩ => show win0_2.index t 1 * 256 + 1 * l.val = 256 * (t.val % 16) + l.val; rw [(index2 t).2]; omega

/-- The membrane-weight chunk at point `t`: the same part of the quantized membrane weights. -/
theorem wmembrane_chunk (c : Dev nD) (t : Fin cfg0.N) (p : Fin 1280) (l : Fin 256)
    (h0 : 1280 * (t.val / 16 % 25) + p.val < 32000) (h1 : 256 * (t.val % 16) + l.val < 4096) :
    (iblk m c 3 t : Vec F S1280x256 .bf16) (ix2 p l)
      = (V m c main_v21 : S32000x4096.Idx → Elt F .bf16) (ix2 ⟨1280 * (t.val / 16 % 25) + p.val, h0⟩ ⟨256 * (t.val % 16) + l.val, h1⟩) := by
  unfold iblk
  rw [View.read_apply]
  show V m c main_v21 _ = V m c main_v21 _
  congr 1
  funext a
  apply Fin.ext
  match a with
  | ⟨0, _⟩ => show win0_3.index t 0 * 1280 + 1 * p.val = 1280 * (t.val / 16 % 25) + p.val; rw [(index3 t).1]; omega
  | ⟨1, _⟩ => show win0_3.index t 1 * 256 + 1 * l.val = 256 * (t.val % 16) + l.val; rw [(index3 t).2]; omega

end Cert.KernelIdeal.Staged

end
-- ==== Proof.Result.lean ====
/-
  The kernel's result array is the readout of the staged arrays.

  Fix an output block (row block `i`, column block `j`). Its sixteen points `16 * a … 16 * a + 15` (`a = 25 * i + j`)
  run over the chunks of the hidden axis. The accumulator is reset to zero at the first and each point adds its two
  chunk products (spikes against spike weights, membranes against membrane weights), so after the point at offset
  `s` it holds the sum of the addends of the chunks `0 … s`; the last point copies it to the output block. Summed
  over the sixteen chunks, the addends are the two row products over all 4096 hidden coordinates: the readout.
  Every element of the [4096, 32000] result lies in exactly such a block.
-/
import proofs.«423691_j47072841564533_3_alg».proof.Proof.Gen.KernelIdeal.Value
import proofs.«423691_j47072841564533_3_alg».proof.Proof.Sums
import proofs.«423691_j47072841564533_3_alg».proof.Proof.Payload
import proofs.«423691_j47072841564533_3_alg».proof.Proof.Pieces
import proofs.«423691_j47072841564533_3_alg».proof.Proof.Arrays
import Idealize.ShloMosaic.Lib.Pipeline.Value
import Idealize.ShloMosaic.Lib.ValueIdx

noncomputable section

open scoped BigOperators

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The staged arrays and a point's chunks, as arrays of extended reals -/

abbrev actS (c : Dev nD) : S4096x4096.Idx → EReal := V m c main_v24
abbrev actM (c : Dev nD) : S4096x4096.Idx → EReal := V m c main_v27
abbrev qS (c : Dev nD) : S32000x4096.Idx → EReal := V m c main_v20
abbrev qM (c : Dev nD) : S32000x4096.Idx → EReal := V m c main_v21

abbrev chunkS (c : Dev nD) (t : Fin cfg0.N) : S1024x256.Idx → EReal := iblk m c 0 t
abbrev chunkM (c : Dev nD) (t : Fin cfg0.N) : S1024x256.Idx → EReal := iblk m c 1 t
abbrev chunkQS (c : Dev nD) (t : Fin cfg0.N) : S1280x256.Idx → EReal := iblk m c 2 t
abbrev chunkQM (c : Dev nD) (t : Fin cfg0.N) : S1280x256.Idx → EReal := iblk m c 3 t

/-- What point `n` adds to the accumulator at row `j 0`, column `j 1` of the block: its two chunk products (zero past the grid). -/
def addend (c : Dev nD) (n : ℕ) (j : S1024x1280.Idx) : EReal :=
  if h : n < cfg0.N then
    (∑ l : Fin 256, chunkS m c ⟨n, h⟩ (ix2 (j 0) l) * chunkQS m c ⟨n, h⟩ (ix2 (j 1) l))
      + ∑ l : Fin 256, chunkM m c ⟨n, h⟩ (ix2 (j 0) l) * chunkQM m c ⟨n, h⟩ (ix2 (j 1) l)
  else 0

/-- One point's update at an element: the accumulator plus the two chunk products. -/
theorem update_apply (x0 x1 : Vec Ideal S1024x256 .bf16) (x2 x3 : Vec Ideal S1280x256 .bf16) (acc : Vec Ideal S1024x1280 .f32)
    (j : S1024x1280.Idx) :
    Cases.update x0 x1 x2 x3 acc j
      = acc j + ((∑ l : Fin 256, x0 (ix2 (j 0) l) * x2 (ix2 (j 1) l)) + ∑ l : Fin 256, x1 (ix2 (j 0) l) * x3 (ix2 (j 1) l)) := by
  obtain ⟨p, q, rfl⟩ : ∃ (p : Fin 1024) (q : Fin 1280), j = ix2 p q := ⟨j 0, j 1, eq_ix2 j⟩
  show k0_pay3 (F := Ideal) x1 x3 (k0_pay2 x0 x2 acc) (ix2 p q) = _
  rw [Point.membrane_step_apply, Point.spike_step_apply, add_assoc]

/-! ## The accumulator along a run of sixteen points -/

/-- At the first point of a run the accumulator ends at that point's addend (from zero). -/
theorem first_apply (c : Dev nD) (n : ℕ) (hb : n < cfg0.N) (h0 : n % 16 = 0) (acc : Vec Ideal S1024x1280 .f32) (j : S1024x1280.Idx) :
    Value.scAt0_0 m c n hb acc j = 0 + addend m c n j := by
  have h1 : ¬n % 16 = 15 := by omega
  unfold Value.scAt0_0
  rw [dif_pos h0, dif_neg h1]
  refine (congrFun (Cases.first_leaves (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) j).trans ?_
  rw [update_apply, Point.reset_apply]
  unfold addend
  rw [dif_pos hb]

/-- At every later point of the run it grows by that point's addend. -/
theorem step_apply (c : Dev nD) (n : ℕ) (hb : n < cfg0.N) (h0 : ¬n % 16 = 0) (acc : Vec Ideal S1024x1280 .f32) (j : S1024x1280.Idx) :
    Value.scAt0_0 m c n hb acc j = acc j + addend m c n j := by
  unfold Value.scAt0_0
  rw [dif_neg h0]
  by_cases h1 : n % 16 = 15
  · rw [dif_pos h1]
    refine (congrFun (Cases.last_leaves (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) j).trans ?_
    rw [update_apply]
    unfold addend
    rw [dif_pos hb]
  · rw [dif_neg h1]
    refine (congrFun (Cases.middle_leaves (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) j).trans ?_
    rw [update_apply]
    unfold addend
    rw [dif_pos hb]

/-- So after point `t` the accumulator holds the sum of the addends of its run's points up to `t`. -/
theorem scratch_fold (c : Dev nD) (t : Fin cfg0.N) (j : S1024x1280.Idx) :
    (outsAt0 m c t.val t.isLt).2 j = ∑ s ∈ Finset.range (t.val % 16 + 1), addend m c (16 * (t.val / 16) + s) j := by
  rw [Value.soutsAt0_0_eq m c t]
  rw [Pipeline.accAt_add_apply (fun n h => Value.scAt0_0 m c n h (VS0_0.read (Elt Ideal) VS0_0.junk)) (Value.scAt0_0 m c)
      (fun _ => (0 : EReal)) (addend m c) (16 * (t.val / 16)) 15
      (fun h i => first_apply m c _ h (by omega) _ i)
      (fun n h acc i hlt hle => step_apply m c n h (by omega) acc i)
      (t.val % 16) (by omega) _ j, zero_add]

/-- The last point of a run writes the accumulator's final contents to the output block. -/
theorem out_eq_scratch (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (Cases.last_writes (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _).trans
    (Cases.last_leaves (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _).symm

/-! ## The result array -/

/-- The [4096, 32000] result: the readout of the staged activations against the staged quantized weights. -/
abbrev result (c : Dev nD) : Buf (Elt Ideal) ((c : Thread nD τ).loc main_v28) :=
  Cert.Readout.readout (actS m c) (actM m c) (qS m c) (qM m c)

/-- A run's chunk `s` addend, in the arrays' coordinates: rows `N`, `O` of the arrays, hidden coordinates `256 * s + l`. -/
theorem addend_eq (c : Dev nD) (t : Fin cfg0.N) (s : Fin 16) (p : Fin 1024) (q : Fin 1280) (N : Fin 4096) (O : Fin 32000)
    (hN : N.val = 1024 * (t.val / 16 / 25) + p.val) (hO : O.val = 1280 * (t.val / 16 % 25) + q.val) :
    addend m c (16 * (t.val / 16) + s.val) (ix2 p q)
      = (∑ l : Fin 256, actS m c (ix2 N ⟨256 * s.val + l.val, by omega⟩) * qS m c (ix2 O ⟨256 * s.val + l.val, by omega⟩))
        + ∑ l : Fin 256, actM m c (ix2 N ⟨256 * s.val + l.val, by omega⟩) * qM m c (ix2 O ⟨256 * s.val + l.val, by omega⟩) := by
  have hN0 : cfg0.N = 1600 := N_0
  have ht := t.isLt
  have hlt : 16 * (t.val / 16) + s.val < cfg0.N := by omega
  unfold addend
  rw [dif_pos hlt]
  have e0 : ∀ l : Fin 256, chunkS m c ⟨_, hlt⟩ (ix2 p l) = actS m c (ix2 N ⟨256 * s.val + l.val, by omega⟩) := fun l =>
    (Staged.spike_chunk m c ⟨_, hlt⟩ p l (by dsimp only; omega) (by dsimp only; omega)).trans
      (congrArg (actS m c) (funext fun a => Fin.ext (by
        match a with
        | ⟨0, _⟩ => show 1024 * ((16 * (t.val / 16) + s.val) / 16 / 25) + p.val = N.val; omega
        | ⟨1, _⟩ => show 256 * ((16 * (t.val / 16) + s.val) % 16) + l.val = 256 * s.val + l.val; omega)))
  have e1 : ∀ l : Fin 256, chunkM m c ⟨_, hlt⟩ (ix2 p l) = actM m c (ix2 N ⟨256 * s.val + l.val, by omega⟩) := fun l =>
    (Staged.membrane_chunk m c ⟨_, hlt⟩ p l (by dsimp only; omega) (by dsimp only; omega)).trans
      (congrArg (actM m c) (funext fun a => Fin.ext (by
        match a with
        | ⟨0, _⟩ => show 1024 * ((16 * (t.val / 16) + s.val) / 16 / 25) + p.val = N.val; omega
        | ⟨1, _⟩ => show 256 * ((16 * (t.val / 16) + s.val) % 16) + l.val = 256 * s.val + l.val; omega)))
  have e2 : ∀ l : Fin 256, chunkQS m c ⟨_, hlt⟩ (ix2 q l) = qS m c (ix2 O ⟨256 * s.val + l.val, by omega⟩) := fun l =>
    (Staged.wspike_chunk m c ⟨_, hlt⟩ q l (by dsimp only; omega) (by dsimp only; omega)).trans
      (congrArg (qS m c) (funext fun a => Fin.ext (by
        match a with
        | ⟨0, _⟩ => show 1280 * ((16 * (t.val / 16) + s.val) / 16 % 25) + q.val = O.val; omega
        | ⟨1, _⟩ => show 256 * ((16 * (t.val / 16) + s.val) % 16) + l.val = 256 * s.val + l.val; omega)))
  have e3 : ∀ l : Fin 256, chunkQM m c ⟨_, hlt⟩ (ix2 q l) = qM m c (ix2 O ⟨256 * s.val + l.val, by omega⟩) := fun l =>
    (Staged.wmembrane_chunk m c ⟨_, hlt⟩ q l (by dsimp only; omega) (by dsimp only; omega)).trans
      (congrArg (qM m c) (funext fun a => Fin.ext (by
        match a with
        | ⟨0, _⟩ => show 1280 * ((16 * (t.val / 16) + s.val) / 16 % 25) + q.val = O.val; omega
        | ⟨1, _⟩ => show 256 * ((16 * (t.val / 16) + s.val) % 16) + l.val = 256 * s.val + l.val; omega)))
  show (∑ l : Fin 256, chunkS m c ⟨_, hlt⟩ (ix2 p l) * chunkQS m c ⟨_, hlt⟩ (ix2 q l))
      + ∑ l : Fin 256, chunkM m c ⟨_, hlt⟩ (ix2 p l) * chunkQM m c ⟨_, hlt⟩ (ix2 q l) = _
  simp only [e0, e1, e2, e3]

/-- WHAT A RUN'S LAST POINT WRITES BACK is its block of the readout. -/
theorem flushed_eq (c : Dev nD) (t : Fin cfg0.N) (hf : (cfg0.win 4).flush t = true) :
    (dats m 0 c).flushed 4 t = ((cfg0.win 4).blk t).view.read (Elt Ideal) (result m c) := by
  have h1 : t.val % 16 = 15 := (flush0_4 t).mp hf
  have h0 : ¬t.val % 16 = 0 := by omega
  have hN0 : cfg0.N = 1600 := N_0
  have ht := t.isLt
  rw [Value.flushed4, out_eq_scratch m c t h0 h1]
  funext j
  obtain ⟨p, q, rfl⟩ : ∃ (p : Fin 1024) (q : Fin 1280), j = ix2 p q := ⟨j 0, j 1, eq_ix2 j⟩
  show (outsAt0 m c t.val t.isLt).2 (ix2 p q) = result m c (((cfg0.win 4).blk t).view.emb (ix2 p q))
  have hemb : ((cfg0.win 4).blk t).view.emb (ix2 p q)
      = ix2 (⟨1024 * (t.val / 16 / 25) + p.val, by omega⟩ : Fin 4096) (⟨1280 * (t.val / 16 % 25) + q.val, by omega⟩ : Fin 32000) := by
    funext a
    apply Fin.ext
    match a with
    | ⟨0, _⟩ => show win0_4.index t 0 * 1024 + 1 * p.val = 1024 * (t.val / 16 / 25) + p.val; rw [(Staged.index4 t).1]; omega
    | ⟨1, _⟩ => show win0_4.index t 1 * 1280 + 1 * q.val = 1280 * (t.val / 16 % 25) + q.val; rw [(Staged.index4 t).2]; omega
  rw [hemb, scratch_fold, h1, Finset.sum_range]
  show _ = Cert.Readout.readout (actS m c) (actM m c) (qS m c) (qM m c) (ix2 _ _)
  rw [Cert.Readout.readout_chunks]
  exact Finset.sum_congr rfl fun s _ => addend_eq m c t s p q _ _ rfl rfl

/-- An element of the array is in point `t`'s block iff each coordinate is in the block's range. -/
theorem mem_block (t : Fin cfg0.N) (i : S4096x32000.Idx) :
    i ∈ ((cfg0.win 4).blk t).view.set ↔ ∀ a : Fin 2, win0_4.index t a * S1024x1280.size a ≤ (i a).val ∧ (i a).val < win0_4.index t a * S1024x1280.size a + S1024x1280.size a := by
  show i ∈ ((View.whole main_v28).slice (win0_4.rect t)).set ↔ _
  rw [View.set_slice_whole, Rect.mem_set_unit]
  exact Iff.rfl

/-- Every element is in the block some run's last point writes back. -/
theorem cover (i : S4096x32000.Idx) : ∃ t : Fin cfg0.N, (cfg0.win 4).flush t = true ∧ i ∈ ((cfg0.win 4).blk t).view.set := by
  have hi0 : (i 0).val < 4096 := (i 0).isLt
  have hi1 : (i 1).val < 32000 := (i 1).isLt
  have hN0 : cfg0.N = 1600 := N_0
  refine ⟨⟨((i 0).val / 1024 * 25 + (i 1).val / 1280) * 16 + 15, by omega⟩, (flush0_4 _).mpr (by dsimp only; omega), ?_⟩
  rw [mem_block]
  intro a
  match a with
  | ⟨0, _⟩ =>
    show win0_4.index _ 0 * 1024 ≤ (i 0).val ∧ (i 0).val < win0_4.index _ 0 * 1024 + 1024
    rw [(Staged.index4 _).1]; dsimp only; omega
  | ⟨1, _⟩ =>
    show win0_4.index _ 1 * 1280 ≤ (i 1).val ∧ (i 1).val < win0_4.index _ 1 * 1280 + 1280
    rw [(Staged.index4 _).2]; dsimp only; omega

/-- The result array after the run is the readout. -/
theorem final (c : Dev nD) : (dats m 0 c).arrAt 4 cfg0.N = result m c :=
  (dats m 0 c).arrAt_eq_of_cover 4 (result m c) (flushed_eq m c) cover

/-- The kernel's run, with the result array named. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefValue.lean ====
/-
  The reference's result, element by element.

  The reference quantizes each weight matrix, multiplies the spikes and the membranes by the transposed quantized
  weights, and adds 0.6 (as an f32) times the first product to 0.4 (as an f32) times the second. At row `n`,
  column `o` that is `c₆ * ∑ h, spikes[n, h] * Qs[o, h] + c₄ * ∑ h, membranes[n, h] * Qm[o, h]`: the transposes only
  exchange the two coordinates of the weights. Both constants are non-negative reals, so each moves inside its sum
  onto the activations: the result is the readout of the SCALED activations against the quantized weights.
-/
import proofs.«423691_j47072841564533_3_alg».proof.Proof.Gen.ReferenceIdeal.Read
import proofs.«423691_j47072841564533_3_alg».proof.Proof.Sums

noncomputable section

open scoped BigOperators

namespace Cert.ReferenceIdeal.RefValue

open Cert.ReferenceIdeal Cert.ReferenceIdeal.Read Idealize.ShloMosaic Idealize.ShloMosaic.ValueIdx Cert.Readout

/-- The reference's result at an element is the readout of the scaled activations against the quantized weights. -/
theorem result_apply (x0 x1 : (⟨S4096x4096, .f32⟩ : BufTy).Contents (Elt Ideal)) (x2 x3 : (⟨S32000x4096, .f32⟩ : BufTy).Contents (Elt Ideal))
    (i : S4096x32000.Idx) :
    val_main_v26 (F := Ideal) x0 x1 x2 x3 i
      = readout (fun j => Ideal.ofBits .f32 0x3F19999A#32 * x0 j) (fun j => Ideal.ofBits .f32 0x3ECCCCCD#32 * x1 j)
          (val_main_v8 (F := Ideal) x2) (val_main_v17 (F := Ideal) x3) i := by
  obtain ⟨n, o, rfl⟩ : ∃ (n : Fin 4096) (o : Fin 32000), i = ix2 n o := ⟨i 0, i 1, eq_ix2 i⟩
  have el : ∀ k, lidx_main_v19 (ix2 n o) k = ix2 n k := fun k => funext fun a => by
    match a with
    | ⟨0, _⟩ => rfl
    | ⟨1, _⟩ => rfl
  have er : ∀ k, idx_main_v18 (ridx_main_v19 (ix2 n o) k) = ix2 o k := fun k => funext fun a => by
    match a with
    | ⟨0, _⟩ => rfl
    | ⟨1, _⟩ => rfl
  have el' : ∀ k, lidx_main_v21 (ix2 n o) k = ix2 n k := fun k => funext fun a => by
    match a with
    | ⟨0, _⟩ => rfl
    | ⟨1, _⟩ => rfl
  have er' : ∀ k, idx_main_v20 (ridx_main_v21 (ix2 n o) k) = ix2 o k := fun k => funext fun a => by
    match a with
    | ⟨0, _⟩ => rfl
    | ⟨1, _⟩ => rfl
  rw [val_main_v26_apply, val_main_v23_apply, val_main_v25_apply, val_main_v22_apply, val_main_v24_apply,
    val_main_cst_5_apply, val_main_cst_6_apply, val_main_v19_apply, val_main_v21_apply]
  simp only [val_main_v18_apply, val_main_v20_apply, el, er, el', er']
  show Ideal.ofBits .f32 0x3F19999A#32 * rowdot x0 (val_main_v8 (F := Ideal) x2) n o
      + Ideal.ofBits .f32 0x3ECCCCCD#32 * rowdot x1 (val_main_v17 (F := Ideal) x3) n o = _
  rw [scale_rowdot _ spikeW_nonneg spikeW_ne_top, scale_rowdot _ membraneW_nonneg membraneW_ne_top]
  rfl

end Cert.ReferenceIdeal.RefValue

end
-- ==== Proof.Bridge.lean ====
/-
  The two programs compute one function.

  At the ideal instance narrowing to bf16 is the identity, so the arrays the kernel stages are: the spikes times the
  f32 word nearest 0.6, the membranes times the one nearest 0.4, and the two quantized weight matrices, which are
  term for term the reference's (the same sign, comparison, mean and literals). The kernel's result is the readout
  of those four arrays (the accumulation over the sixteen chunks); the reference's result is the same readout once
  its two output weights are moved inside the row products onto the activations.
-/
import proofs.«423691_j47072841564533_3_alg».proof.Defs
import proofs.«423691_j47072841564533_3_alg».proof.Proof.Result
import proofs.«423691_j47072841564533_3_alg».proof.Proof.RefValue

noncomputable section

namespace Cert.Proof.Bridge

open Idealize.ShloMosaic Idealize.ShloMosaic.TcCoe Idealize.SL.Sem
open Cert.KernelIdeal (nD τ sig)

variable (m : (ℓ : Loc nD τ sig) → Buf (Elt Ideal) ℓ)

/-- A scaled activation matrix at an element: the constant's value times the element. -/
theorem scaled_apply (b : BitVec 32) (x : FVec Ideal Cert.KernelIdeal.S4096x4096 .f32) (j : Cert.KernelIdeal.S4096x4096.Idx) :
    Cert.KernelIdeal.Staged.scaled (F := Ideal) b x j = Ideal.ofBits .f32 b * x j := by
  unfold Cert.KernelIdeal.Staged.scaled
  show _ * x j = _ * x j
  congr 1

/-- The kernel's quantized spike weights are the reference's. -/
theorem ternary_spike (w : FVec Ideal Cert.KernelIdeal.S32000x4096 .f32) :
    Cert.KernelIdeal.Staged.ternary (F := Ideal) w = Cert.ReferenceIdeal.Read.val_main_v8 (F := Ideal) w := rfl

/-- The kernel's quantized membrane weights are the reference's. -/
theorem ternary_membrane (w : FVec Ideal Cert.KernelIdeal.S32000x4096 .f32) :
    Cert.KernelIdeal.Staged.ternary (F := Ideal) w = Cert.ReferenceIdeal.Read.val_main_v17 (F := Ideal) w := rfl

/-- The kernel's result array, as the readout of the scaled arguments against the reference's quantized weights. -/
theorem result_eq (c : Dev nD) :
    Cert.KernelIdeal.Result.result m c
      = Cert.Readout.readout (fun j => Ideal.ofBits .f32 0x3F19999A#32 * m ((c : Thread nD τ).loc Cert.KernelIdeal.main_arg0) j)
          (fun j => Ideal.ofBits .f32 0x3ECCCCCD#32 * m ((c : Thread nD τ).loc Cert.KernelIdeal.main_arg1) j)
          (Cert.ReferenceIdeal.Read.val_main_v8 (F := Ideal) (m ((c : Thread nD τ).loc Cert.KernelIdeal.main_arg2)))
          (Cert.ReferenceIdeal.Read.val_main_v17 (F := Ideal) (m ((c : Thread nD τ).loc Cert.KernelIdeal.main_arg3))) := by
  have e0 : Cert.KernelIdeal.Result.actS m c = fun j => Ideal.ofBits .f32 0x3F19999A#32 * m ((c : Thread nD τ).loc Cert.KernelIdeal.main_arg0) j := by
    funext j
    show Cert.KernelIdeal.Gen.V m c Cert.KernelIdeal.main_v24 j = _
    rw [Cert.KernelIdeal.Staged.staged_spikes]
    exact scaled_apply _ _ j
  have e1 : Cert.KernelIdeal.Result.actM m c = fun j => Ideal.ofBits .f32 0x3ECCCCCD#32 * m ((c : Thread nD τ).loc Cert.KernelIdeal.main_arg1) j := by
    funext j
    show Cert.KernelIdeal.Gen.V m c Cert.KernelIdeal.main_v27 j = _
    rw [Cert.KernelIdeal.Staged.staged_membranes]
    exact scaled_apply _ _ j
  have e2 : Cert.KernelIdeal.Result.qS m c = Cert.ReferenceIdeal.Read.val_main_v8 (F := Ideal) (m ((c : Thread nD τ).loc Cert.KernelIdeal.main_arg2)) := by
    show Cert.KernelIdeal.Gen.V m c Cert.KernelIdeal.main_v20 = _
    rw [Cert.KernelIdeal.Staged.staged_wspike]
    exact ternary_spike _
  have e3 : Cert.KernelIdeal.Result.qM m c = Cert.ReferenceIdeal.Read.val_main_v17 (F := Ideal) (m ((c : Thread nD τ).loc Cert.KernelIdeal.main_arg3)) := by
    show Cert.KernelIdeal.Gen.V m c Cert.KernelIdeal.main_v21 = _
    rw [Cert.KernelIdeal.Staged.staged_wmembrane]
    exact ternary_membrane _
  show Cert.Readout.readout (Cert.KernelIdeal.Result.actS m c) (Cert.KernelIdeal.Result.actM m c) (Cert.KernelIdeal.Result.qS m c) (Cert.KernelIdeal.Result.qM m c) = _
  rw [e0, e1, e2, e3]
  rfl

end Cert.Proof.Bridge

end
-- ==== Proof.lean ====
/- The certificate of the hybrid readout kernel against its reference: the five claims of `Cert.Claim`.

   Both programs quantize the two weight matrices to `sign w * [|w| > 0.7 * mean |w|]` with the same host operations.
   The kernel scales the spikes by the f32 nearest 0.6 and the membranes by the f32 nearest 0.4 BEFORE the products
   and accumulates `spikes · Qsᵀ + membranes · Qmᵀ` over sixteen chunks of the hidden axis in a scratch block, written
   out at the last chunk; the reference forms the two whole products and scales them AFTERWARDS. Over the extended
   reals a sum may be regrouped and reordered freely, and a constant `0 ≤ c < ⊤` distributes over any finite sum,
   so both are `∑ h, (c₆ * s[n, h]) * Qs[o, h] + ∑ h, (c₄ * u[n, h]) * Qm[o, h]` at every row `n` and column `o`; no
   finiteness of the inputs is used. The three frames are the programs' runs with the results dropped; the
   idealization rewrote nothing, so `preserves` is trivial. -/
import proofs.«423691_j47072841564533_3_alg».proof.Defs
import proofs.«423691_j47072841564533_3_alg».proof.Proof.Gen.Kernel
import proofs.«423691_j47072841564533_3_alg».proof.Proof.Gen.Kernel.Skeleton
import proofs.«423691_j47072841564533_3_alg».proof.Proof.Gen.Kernel.Launch
import proofs.«423691_j47072841564533_3_alg».proof.Proof.Gen.Kernel.Points
import proofs.«423691_j47072841564533_3_alg».proof.Proof.Gen.Kernel.Frame
import proofs.«423691_j47072841564533_3_alg».proof.Proof.Gen.KernelIdeal
import proofs.«423691_j47072841564533_3_alg».proof.Proof.Gen.KernelIdeal.Skeleton
import proofs.«423691_j47072841564533_3_alg».proof.Proof.Gen.KernelIdeal.Launch
import proofs.«423691_j47072841564533_3_alg».proof.Proof.Gen.KernelIdeal.Points
import proofs.«423691_j47072841564533_3_alg».proof.Proof.Gen.KernelIdeal.Frame
import proofs.«423691_j47072841564533_3_alg».proof.Proof.Gen.KernelIdeal.Value
import proofs.«423691_j47072841564533_3_alg».proof.Proof.Gen.ReferenceIdeal
import proofs.«423691_j47072841564533_3_alg».proof.Proof.Gen.ReferenceIdeal.Run
import proofs.«423691_j47072841564533_3_alg».proof.Proof.Gen.ReferenceIdeal.Read
import proofs.«423691_j47072841564533_3_alg».proof.Proof.Gen.Pre_finite_inputs
import Idealize.ShloMosaic.Adequacy
import Idealize.ShloMosaic.Init
import proofs.«423691_j47072841564533_3_alg».proof.Proof.Bridge

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the readout of the scaled activations against the quantized weights, of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2]
  show _ = Cert.KernelIdeal.Result.result m c
  rw [Cert.Proof.Bridge.result_eq]
  funext i
  exact Cert.ReferenceIdeal.RefValue.result_apply _ _ _ _ i

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
